-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x512 : Shape := ⟨2, ![1024, 512]⟩
abbrev S1024x1 : Shape := ⟨2, ![1024, 1]⟩
abbrev S1x1024 : Shape := ⟨2, ![1, 1024]⟩
abbrev S1024x1024 : Shape := ⟨2, ![1024, 1024]⟩
abbrev S512x1024 : Shape := ⟨2, ![512, 1024]⟩

abbrev nBuf : Space → Nat
  | .hbm => 8
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S1x8192, .f32⟩
  | .hbm, ⟨6, _⟩ => ⟨S8192x512, .bf16⟩
  | .hbm, ⟨7, _⟩ => ⟨S8192x8192, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x512_S8192_d1 : S8192x512.ReducesTo [1] S8192
  h_S_ : 0 < S_.numel
  shapeCasts_S8192_S8192x1 : S8192.ShapeCasts S8192x1
  shapeCasts_S8192_S1x8192 : S8192.ShapeCasts S1x8192
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  transposes_S1024x512_p1_0_S512x1024 : S1024x512.Transposes [1, 0] S512x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .bf16 = 32 ∨ (Rect.block (s := S8192x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .f32 = 32 ∨ (Rect.block (s := S8192x8192) S1024x1024.size (cc0_transform_4 i) (hinb0_4 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v4) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 19
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S_, .f32⟩
  | .hbm, ⟨3, _⟩ => ⟨S8192, .f32⟩
  | .hbm, ⟨4, _⟩ => ⟨S8192x8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.LibFrameShared.lean ====
/-
  The frame run of a one-region pipelined kernel whose windows may SHARE AN ARRAY.

  One array handed to the kernel through several input windows (the same matrix read once by row blocks and once by
  column blocks, say) is held by the pipeline at one share per window, the shares adding up to the whole. The launch then
  needs, in place of "every window holds its own array outright", one entailment: how the distinct buffers behind the
  windows' arrays, each whole, are dealt among the windows at the shares the proof data name. Everything else is as for a
  kernel with distinct arrays and nothing of its own (no semaphore, no transfer, no use of the generator register): the
  scoped buffers that are no staging buffer enter the region's invariant and come back out of it, and the unscoped buffers
  that are no window's array bypass the region and are read back at the end as the region found them.

  The conclusion is the post every frame claim reads: each window's array ends at what the proof data compute from the
  body's write-backs, and every bypassing buffer ends as it was when the region was entered.
-/
import Idealize.ShloMosaic.Lib.Pipeline.Frame

noncomputable section

namespace Cert.FrameShared

open Idealize.ShloMosaic Idealize.ShloMosaic.Pipeline Idealize.ShloMosaic.Rounds
open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- The frame run for windows that may share arrays. `hsplit` deals the distinct array buffers, each whole at the
    region-entry contents `V`, among the windows at the proof data's shares; `hin` / `hout` pass the scoped rest into
    the invariant before the first point and back out of it after the last. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr
      · iempintro
      · iexact HU)
    (hin := fun c => by
      iintro ⟨-, HR⟩
      iapply (hin c)
      iexact HR)
    (hout := fun c => by
      iintro HΦ
      isplitr
      · iempintro
      · iapply (hout c)
        iexact HΦ)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Cert.FrameShared

end
-- ==== Proof.KernelFrame.lean ====
/-
  The frame of the kernel program, at any float instance, and its run with the result array named.

  The program squares and sums the rows of its input on the host, casts the input to the matrix unit's format, and
  launches one pipelined kernel on an 8 by 8 grid. Two of the kernel's five windows read ONE array (the cast input):
  window 0 fetches its row block `i`, window 1 its row block `j`; windows 2 and 3 fetch the squared norms as a column
  block and a row block, and window 4 writes block `(i, j)` of the result back at every point. The pipeline therefore
  holds the cast input at two half shares, one per window, which add up to the whole array.

  At a point the body loads its four input blocks, computes one value from them, and stores it over the whole output
  block; it keeps nothing between points. So after the body each input buffer still holds its block and the output
  buffer holds that value of the four input blocks; the region's invariant is only the scoped buffers that are no
  staging buffer.
-/
import proofs.«108911_j73667279061041_1_alg».proof.Proof.Gen.Kernel.Launch
import proofs.«108911_j73667279061041_1_alg».proof.Proof.Gen.Kernel.Skeleton
import proofs.«108911_j73667279061041_1_alg».proof.Proof.Gen.Kernel.Points
import proofs.«108911_j73667279061041_1_alg».proof.Proof.LibFrameShared
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- Core `c`'s buffers when the region is entered: the launch contents after the six host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program up to the region: the host operations, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not (where it is not fetched the
    block index has not moved), for any proof data over the region-entry arrays whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The argument is no window's array, so it bypasses the region: the frame run's post at it, then `V_main_arg0`. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c =>
    ((h c).2 main_arg0 (Pipeline.mem_restRefs_of main_arg0 (by decide) (by decide))).trans (V_main_arg0 m c)) h

/-! ## The body -/

abbrev rIn : Rect S1024x512 := Rect.unit (s := S1024x512) ![0, 0] S1024x512.size inb_S1024x512_S1024x512_0_0
abbrev rCol : Rect S1024x1 := Rect.unit (s := S1024x1) ![0, 0] S1024x1.size inb_S1024x1_S1024x1_0_0
abbrev rRow : Rect S1x1024 := Rect.unit (s := S1x1024) ![0, 0] S1x1024.size inb_S1x1024_S1x1024_0_0
abbrev rOut : Rect S1024x1024 := Rect.unit (s := S1024x1024) ![0, 0] S1024x1024.size inb_S1024x1024_S1024x1024_0_0

/-- What the output buffer holds after the body, from the four input blocks: its one store, over the whole block. -/
def outBlk (x0 x1 : Vec F S1024x512 .bf16) (x2 : Vec F S1024x1 .f32) (x3 : Vec F S1x1024 .f32) : Vec F S1024x1024 .f32 :=
  View.canon [⟨rOut, k0_pay1 (View.ld x0 rIn) (View.ld x1 rIn) (View.ld x2 rCol) (View.ld x3 rRow)⟩]

/-- The one store covers the buffer. -/
theorem cover_out (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

set_option maxHeartbeats 1000000 in
/-- The body on whole staging memrefs, the inputs' at read contents `x0 … x3` and the output's at anything, runs to the
    continuation holding the inputs' as they were and the output's at `outBlk` of them. -/
theorem sound_kernel (c : Dev nD) (E : Set ℕ) (i : grid0.Coords)
    (arg2 : Memref sig .tc .vmem S1024x512 .bf16) (harg2 : arg2.IsWhole) (arg3 : Memref sig .tc .vmem S1024x512 .bf16) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1024x1024 .f32) (harg6 : arg6.IsWhole)
    (x0 x1 : Vec F S1024x512 .bf16) (x2 : Vec F S1024x1 .f32) (x3 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (outBlk x0 x1 x2 x3)) -∗ K ⟨⟩))
      ⊢ wp frame (wpE (defs₀ (F := F)) Variants.none c none) E (cc0__sim_kernel i arg2 harg2 arg3 harg3 arg4 harg4 arg5 harg5 arg6 harg6) K := by
  simp only [cc0__sim_kernel_eq_skeleton]; unfold cc0__sim_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-! ## The pipeline's proof data -/

/-- The proof data on core `c`: the arrays as the region finds them; after the body each input's buffer at its block and
    the output's at `outBlk` of the input blocks; the invariant the scoped rest; nothing owed; the cast input, read by
    windows 0 and 1, held at the two halves of the full share, the other inputs outright. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = outBlk (iblk m c 0 t) (iblk m c 1 t) (iblk m c 2 t) (iblk m c 3 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so `sound_kernel` applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The arrays dealt among the windows -/

/-- The four distinct array buffers, each whole at the region-entry contents, make the five windows' holdings: the cast
    input split into its two halves for windows 0 and 1, the others handed over whole. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v4) ↦{fullShare} W main_v4) ∗ (((c : Thread nD τ).loc main_v2) ↦{fullShare} W main_v2)
          ∗ (((c : Thread nD τ).loc main_v3) ↦{fullShare} W main_v3) ∗ (((c : Thread nD τ).loc main_v5) ↦{fullShare} W main_v5)) :=
  bigSep_eq_bigSepL_of_eq [main_v4, main_v2, main_v3, main_v5] (by decide) (by decide) _

theorem hsplit (c : Dev nD) :
    (Pipeline.arrBufs spec0 c (V m c) : sProp 𝕄) ⊢ (dats m 0 c).arrays ((dats m 0 c).arrAt · 0) := by
  rw [arrBufs_eq]
  unfold Dat.arrays
  rw [bigSep_W0]
  simp only [View.set_whole]
  iintro ⟨H4, H2, H3, H5⟩
  ihave H4s := (pointsTo_share (PosShare.mem_left_op_right fullShare)).1 $$ H4
  icases H4s with ⟨H4l, H4r⟩
  isplitl [H4l]; · iexact H4l
  isplitl [H4r]; · iexact H4r
  isplitl [H2]; · iexact H2
  isplitl [H3]; · iexact H3
  iexact H5

/-! ## The run and the frame -/

set_option backward.isDefEq.respectTransparency.types false in
/-- From any memory with zero counters, every weakly fair execution of the program terminates with each window's array at
    what the proof data compute from the write-backs and every other unscoped buffer as the region found it. -/
theorem run_main : θ_run defs (onTc (τ := τ) (main (F := F))) (s₀ m ρ) (Pipeline.FramePost cfgs (dats m) 0 (V m)) :=
  Cert.FrameShared.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hin := fun _ => .rfl) (hout := fun _ => .rfl)

/-- The frame: the program runs to the end, faults nowhere, and leaves its argument unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (run_main m ρ)

end Cert.Kernel.Frame

end
-- ==== Proof.KernelIdealFrame.lean ====
/-
  The frame of the kernel program, at any float instance, and its run with the result array named.

  The program squares and sums the rows of its input on the host, casts the input to the matrix unit's format, and
  launches one pipelined kernel on an 8 by 8 grid. Two of the kernel's five windows read ONE array (the cast input):
  window 0 fetches its row block `i`, window 1 its row block `j`; windows 2 and 3 fetch the squared norms as a column
  block and a row block, and window 4 writes block `(i, j)` of the result back at every point. The pipeline therefore
  holds the cast input at two half shares, one per window, which add up to the whole array.

  At a point the body loads its four input blocks, computes one value from them, and stores it over the whole output
  block; it keeps nothing between points. So after the body each input buffer still holds its block and the output
  buffer holds that value of the four input blocks; the region's invariant is only the scoped buffers that are no
  staging buffer.
-/
import proofs.«108911_j73667279061041_1_alg».proof.Proof.Gen.KernelIdeal.Launch
import proofs.«108911_j73667279061041_1_alg».proof.Proof.Gen.KernelIdeal.Skeleton
import proofs.«108911_j73667279061041_1_alg».proof.Proof.Gen.KernelIdeal.Points
import proofs.«108911_j73667279061041_1_alg».proof.Proof.LibFrameShared
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- Core `c`'s buffers when the region is entered: the launch contents after the six host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program up to the region: the host operations, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not (where it is not fetched the
    block index has not moved), for any proof data over the region-entry arrays whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The argument is no window's array, so it bypasses the region: the frame run's post at it, then `V_main_arg0`. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c =>
    ((h c).2 main_arg0 (Pipeline.mem_restRefs_of main_arg0 (by decide) (by decide))).trans (V_main_arg0 m c)) h

/-! ## The body -/

abbrev rIn : Rect S1024x512 := Rect.unit (s := S1024x512) ![0, 0] S1024x512.size inb_S1024x512_S1024x512_0_0
abbrev rCol : Rect S1024x1 := Rect.unit (s := S1024x1) ![0, 0] S1024x1.size inb_S1024x1_S1024x1_0_0
abbrev rRow : Rect S1x1024 := Rect.unit (s := S1x1024) ![0, 0] S1x1024.size inb_S1x1024_S1x1024_0_0
abbrev rOut : Rect S1024x1024 := Rect.unit (s := S1024x1024) ![0, 0] S1024x1024.size inb_S1024x1024_S1024x1024_0_0

/-- What the output buffer holds after the body, from the four input blocks: its one store, over the whole block. -/
def outBlk (x0 x1 : Vec F S1024x512 .bf16) (x2 : Vec F S1024x1 .f32) (x3 : Vec F S1x1024 .f32) : Vec F S1024x1024 .f32 :=
  View.canon [⟨rOut, k0_pay1 (View.ld x0 rIn) (View.ld x1 rIn) (View.ld x2 rCol) (View.ld x3 rRow)⟩]

/-- The one store covers the buffer. -/
theorem cover_out (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

set_option maxHeartbeats 1000000 in
/-- The body on whole staging memrefs, the inputs' at read contents `x0 … x3` and the output's at anything, runs to the
    continuation holding the inputs' as they were and the output's at `outBlk` of them. -/
theorem sound_kernel (c : Dev nD) (E : Set ℕ) (i : grid0.Coords)
    (arg2 : Memref sig .tc .vmem S1024x512 .bf16) (harg2 : arg2.IsWhole) (arg3 : Memref sig .tc .vmem S1024x512 .bf16) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1024x1024 .f32) (harg6 : arg6.IsWhole)
    (x0 x1 : Vec F S1024x512 .bf16) (x2 : Vec F S1024x1 .f32) (x3 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (outBlk x0 x1 x2 x3)) -∗ K ⟨⟩))
      ⊢ wp frame (wpE (defs₀ (F := F)) Variants.none c none) E (cc0__sim_kernel i arg2 harg2 arg3 harg3 arg4 harg4 arg5 harg5 arg6 harg6) K := by
  simp only [cc0__sim_kernel_eq_skeleton]; unfold cc0__sim_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-! ## The pipeline's proof data -/

/-- The proof data on core `c`: the arrays as the region finds them; after the body each input's buffer at its block and
    the output's at `outBlk` of the input blocks; the invariant the scoped rest; nothing owed; the cast input, read by
    windows 0 and 1, held at the two halves of the full share, the other inputs outright. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = outBlk (iblk m c 0 t) (iblk m c 1 t) (iblk m c 2 t) (iblk m c 3 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so `sound_kernel` applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The arrays dealt among the windows -/

/-- The four distinct array buffers, each whole at the region-entry contents, make the five windows' holdings: the cast
    input split into its two halves for windows 0 and 1, the others handed over whole. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v4) ↦{fullShare} W main_v4) ∗ (((c : Thread nD τ).loc main_v2) ↦{fullShare} W main_v2)
          ∗ (((c : Thread nD τ).loc main_v3) ↦{fullShare} W main_v3) ∗ (((c : Thread nD τ).loc main_v5) ↦{fullShare} W main_v5)) :=
  bigSep_eq_bigSepL_of_eq [main_v4, main_v2, main_v3, main_v5] (by decide) (by decide) _

theorem hsplit (c : Dev nD) :
    (Pipeline.arrBufs spec0 c (V m c) : sProp 𝕄) ⊢ (dats m 0 c).arrays ((dats m 0 c).arrAt · 0) := by
  rw [arrBufs_eq]
  unfold Dat.arrays
  rw [bigSep_W0]
  simp only [View.set_whole]
  iintro ⟨H4, H2, H3, H5⟩
  ihave H4s := (pointsTo_share (PosShare.mem_left_op_right fullShare)).1 $$ H4
  icases H4s with ⟨H4l, H4r⟩
  isplitl [H4l]; · iexact H4l
  isplitl [H4r]; · iexact H4r
  isplitl [H2]; · iexact H2
  isplitl [H3]; · iexact H3
  iexact H5

/-! ## The run and the frame -/

set_option backward.isDefEq.respectTransparency.types false in
/-- From any memory with zero counters, every weakly fair execution of the program terminates with each window's array at
    what the proof data compute from the write-backs and every other unscoped buffer as the region found it. -/
theorem run_main : θ_run defs (onTc (τ := τ) (main (F := F))) (s₀ m ρ) (Pipeline.FramePost cfgs (dats m) 0 (V m)) :=
  Cert.FrameShared.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hin := fun _ => .rfl) (hout := fun _ => .rfl)

/-- The frame: the program runs to the end, faults nowhere, and leaves its argument unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (run_main m ρ)

end Cert.KernelIdeal.Frame

end
-- ==== Proof.Spec.lean ====
/-
  The specification: the negative Euclidean distance matrix of the rows of a matrix, through the Gram identity.

  For a matrix `x` with 8192 rows of 512 entries, and a vector `sq` standing for the rows' squared norms, the
  entry `(r, s)` of the result is `-√(max((sq r + sq s) - 2 · ⟨x_r, x_s⟩, 0))` on the extended reals, where
  `⟨x_r, x_s⟩ = Σ_k x[r, k] · x[s, k]`. The squared norms enter as a parameter: both programs compute them by the
  same host reduction of `x · x`, so nothing here needs their formula.
-/
import Idealize.ShloMosaic.PureOps.Ideal
import Idealize.ShloMosaic.Lib.ValueIdx

noncomputable section

open scoped BigOperators
open Idealize.ShloMosaic Idealize.ShloMosaic.ValueIdx

namespace Cert.Spec

/-- One entry from the two squared norms `a`, `b` and the inner product `g`: `-√(max((a + b) - 2 g, 0))`; the
    literals are the words both programs print (`2.0` and `0.0` in f32). -/
def cell (a b g : EReal) : EReal :=
  -(Ideal.sqrt (max ((a + b) - Ideal.ofBits .f32 0x40000000#32 * g) (Ideal.ofBits .f32 0x00000000#32)))

/-- The inner product of rows `r` and `s`. -/
def gram (x : FVec Ideal ⟨2, ![8192, 512]⟩ .f32) (r s : Fin 8192) : EReal :=
  ∑ k : Fin 512, x (ix2 r k) * x (ix2 s k)

/-- Entry `(r, s)` of the negative distance matrix. -/
def negDistAt (x : FVec Ideal ⟨2, ![8192, 512]⟩ .f32) (sq : FVec Ideal ⟨1, ![8192]⟩ .f32) (r s : Fin 8192) : EReal :=
  cell (sq (ix1 r)) (sq (ix1 s)) (gram x r s)

/-- The negative distance matrix as one array. -/
def negDist (x : FVec Ideal ⟨2, ![8192, 512]⟩ .f32) (sq : FVec Ideal ⟨1, ![8192]⟩ .f32) :
    FVec Ideal ⟨2, ![8192, 8192]⟩ .f32 :=
  fun i => negDistAt x sq (i 0) (i 1)

theorem negDist_apply (x : FVec Ideal ⟨2, ![8192, 512]⟩ .f32) (sq : FVec Ideal ⟨1, ![8192]⟩ .f32) (r s : Fin 8192) :
    negDist x sq (ix2 r s) = negDistAt x sq r s := rfl

end Cert.Spec

end
-- ==== Proof.LibMatmulPlain.lean ====
/-
  A plain matrix product read at one entry, on the extended reals.

  For the dimension numbers of an `[M, K]` by `[K, N]` product (contract the left operand's columns with the right
  operand's rows, no batch axis), the matrix unit's product accumulated into a zero block, and the host's
  `dot_general`, are both, at entry `(r, s)`, the sum over `k` of `lhs[r, k] · rhs[k, s]`: the contraction index
  has one coordinate, and the operand indices at `(r, s)` and `k` are `(r, k)` and `(k, s)`.
-/
import Idealize.ShloMosaic.PureOps.Ideal.Laws
import Idealize.ShloMosaic.Lib.ValueIdx

noncomputable section

open scoped BigOperators
open Idealize.ShloMosaic Idealize.ShloMosaic.ValueIdx

namespace Cert.MatmulPlain

variable {M K N : Nat}

/-- The left operand's index at output `(r, s)` and contraction coordinate `k` is `(r, k)`. -/
theorem lhsIdx_plain (r : Fin M) (s : Fin N) (k : Fin K) :
    (DotDims.plain M K N).lhsIdx (ix2 r s) ((contrEquiv1 (DotDims.plain M K N) K rfl rfl).symm k) = ix2 r k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 r s) _).trans hk

/-- The right operand's index there is `(k, s)`. -/
theorem rhsIdx_plain (r : Fin M) (s : Fin N) (k : Fin K) :
    (DotDims.plain M K N).rhsIdx (ix2 r s) ((contrEquiv1 (DotDims.plain M K N) K rfl rfl).symm k) = ix2 k s := by
  have hk := contrEquiv1_symm_val (DotDims.plain M K N) K rfl rfl k
  funext a
  refine Fin.ext ?_
  match a with
  | ⟨0, _⟩ => exact ((DotDims.plain M K N).rhsIdx_val_of_single rfl (ix2 r s) _).trans hk
  | ⟨1, _⟩ => rfl

/-- The matrix unit's product into a zero accumulator, at entry `(r, s)`: `Σ_k lhs[r, k] · rhs[k, s]`. -/
theorem matmul_zero_apply {φ₁ φ₂ : FTy} (prec : Option ContractPrecision)
    (lhs : FVec Ideal ⟨2, ![M, K]⟩ φ₁) (rhs : FVec Ideal ⟨2, ![K, N]⟩ φ₂) (r : Fin M) (s : Fin N) :
    FloatOps.matmul (DotDims.plain M K N) prec lhs rhs (constant ⟨2, ![M, N]⟩ .f32 0x00000000#32) (ix2 r s)
      = ∑ k : Fin K, lhs (ix2 r k) * rhs (ix2 k s) := by
  rw [Ideal.matmul_constant_zero_apply, ← Equiv.sum_comp (contrEquiv1 (DotDims.plain M K N) K rfl rfl).symm]
  refine Finset.sum_congr rfl fun k _ => ?_
  rw [lhsIdx_plain, rhsIdx_plain]

/-- The host's `dot_general` at entry `(r, s)`: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (s : Fin N) :
    FloatOps.dotGeneral (DotDims.plain M K N) prec sched lhs rhs (ix2 r s)
      = ∑ k : Fin K, lhs (ix2 r k) * rhs (ix2 k s) := by
  rw [Ideal.dotGeneral_apply, ← Equiv.sum_comp (contrEquiv1 (DotDims.plain M K N) K rfl rfl).symm]
  refine Finset.sum_congr rfl fun k _ => ?_
  rw [lhsIdx_plain, rhsIdx_plain]

end Cert.MatmulPlain

end
-- ==== Proof.Payload.lean ====
/-
  The kernel body's one stored value, read at an entry of its 1024 by 1024 block, on the extended reals.

  The body takes a row block `A` and a column block `B` (1024 rows of 512 entries each), a column `a` of 1024 squared
  norms and a row `b` of 1024 squared norms. It transposes `B`, multiplies `A` by the transpose into a zero block,
  spreads `a` along the rows and `b` along the columns, and stores `0 - √(max((a + b) - 2 · (A Bᵀ), 0))`. At entry
  `(p, q)` this is the specification's cell of `a[p]`, `b[q]` and the inner product `Σ_k A[p, k] · B[q, k]`:
  every operation but four acts entry by entry; the four that do not (a cast to the same shape, a transpose, the two
  broadcasts, the matrix product) are each read at `(p, q)` by a lemma of its own below.
-/
import proofs.«108911_j73667279061041_1_alg».proof.Proof.Gen.KernelIdeal.Skeleton
import proofs.«108911_j73667279061041_1_alg».proof.Proof.Spec
import proofs.«108911_j73667279061041_1_alg».proof.Proof.LibMatmulPlain
import Idealize.ShloMosaic.Lib.ValueLayout

noncomputable section

open scoped BigOperators
open Cert.KernelIdeal Cert.KernelIdeal.Gen Idealize.ShloMosaic Idealize.ShloMosaic.ValueIdx

namespace Cert.KernelIdeal.Payload

/-- An `[a, 1]` column broadcast to `[a, b]` reads, at `(p, c)`, the column's entry `p`: the first axis is kept
    (also when `a = 1`, where `p = 0`), the unit second axis is read at `0`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The column of squared norms, spread along the rows of the block: entry `(p, q)` is the column's entry `p`. -/
theorem col_apply (v : FVec Ideal S1024x1 .f32) (p q : Fin 1024) :
    broadcastTo S1024x1024 (shapeCast S1024x1 v shapeCasts_S1024x1_S1024x1) broadcasts_S1024x1_S1024x1024 (ix2 p q)
      = v (ix2 p 0) := by
  rw [shapeCast_self]
  exact broadcastTo_a1_ab_apply v _ p q

/-- The row of squared norms, spread along the columns of the block: entry `(p, q)` is the row's entry `q`. -/
theorem row_apply (v : FVec Ideal S1x1024 .f32) (p q : Fin 1024) :
    broadcastTo S1024x1024 (shapeCast S1x1024 v shapeCasts_S1x1024_S1x1024) broadcasts_S1x1024_S1024x1024 (ix2 p q)
      = v (ix2 0 q) := by
  rw [shapeCast_self]
  exact broadcastTo_1b_ab_apply v _ p q

/-- The product of the row block with the transposed column block, into a zero block: entry `(p, q)` is the inner
    product of row `p` of the first with row `q` of the second. The body's dimension numbers are those of a plain
    `[1024, 512]` by `[512, 1024]` product, and the transpose read at `(k, q)` is the operand at `(q, k)`. -/
theorem mm_apply (x0 x1 : FVec Ideal S1024x512 .bf16) (p q : Fin 1024) :
    matmul dot_S1024x512_S512x1024_S1024x1024_1_0_0_1_n_n none
        (shapeCast S1024x512 x0 shapeCasts_S1024x512_S1024x512)
        (transpose S512x1024 [1, 0] (shapeCast S1024x512 x1 shapeCasts_S1024x512_S1024x512) transposes_S1024x512_p1_0_S512x1024)
        (constant (F := Ideal) S1024x1024 .f32 0x00000000#32) (ix2 p q)
      = ∑ k : Fin 512, x0 (ix2 p k) * x1 (ix2 q k) := by
  rw [shapeCast_self, shapeCast_self]
  refine (Cert.MatmulPlain.matmul_zero_apply (M := 1024) (K := 512) (N := 1024) none x0 _ p q).trans ?_
  refine Finset.sum_congr rfl fun k _ => ?_
  rw [transpose_ix2_apply]

/-- The stored value at entry `(p, q)` is the specification's cell of the two squared norms and the inner product.
    The entry-by-entry operations are their extended-real formulas by definition; the zero that the square root is
    subtracted from is the real `0`, and `0 - y = -y`. The zero inside the maximum and the factor `2` stay the words
    the specification has. -/
theorem pay_apply (x0 x1 : Vec Ideal Cert.KernelIdeal.S1024x512 .bf16) (x2 : Vec Ideal Cert.KernelIdeal.S1024x1 .f32)
    (x3 : Vec Ideal Cert.KernelIdeal.S1x1024 .f32) (p q : Fin 1024) :
    Cert.KernelIdeal.Gen.k0_pay1 (F := Ideal) x0 x1 x2 x3 (ix2 p q)
      = Cert.Spec.cell (x2 (ix2 p 0)) (x3 (ix2 0 q)) (∑ k : Fin 512, x0 (ix2 p k) * x1 (ix2 q k)) := by
  unfold Cert.KernelIdeal.Gen.k0_pay1
  simp only [subf, maximumf, sqrt, mulf, addf, broadcast]
  rw [col_apply x2 p q, row_apply x3 p q, mm_apply x0 x1 p q]
  simp only [Ideal.ofBits_def, Ideal.subf_def, Ideal.addf_def, Ideal.mulf_def, Ideal.maximumf_def, Ideal.sqrt_def]
  unfold Cert.Spec.cell
  exact (congrArg (· - _) Ideal.ofBits_zero_f32).trans (zero_sub _)

end Cert.KernelIdeal.Payload

end
-- ==== Proof.KernelIdealValue.lean ====
/-
  What the idealized kernel program leaves in its result array: the negative distance matrix of the input's rows.

  The host part of the program leaves three arrays for the kernel's windows: the input itself (a change of float
  format is the identity on the extended reals), and the vector `sq` of the rows' squared norms laid out once as a
  column and once as a row. At grid point `t`, with block indices `(i, j)`, the kernel's four input blocks are rows
  `1024 i …` of the input, rows `1024 j …` of the input, entries `1024 i …` of `sq` and entries `1024 j …` of `sq`; the
  body's stored value at entry `(p, q)` of its block is the specification's cell of `sq[1024 i + p]`, `sq[1024 j + q]`
  and the inner product of rows `1024 i + p` and `1024 j + q`: entry `(1024 i + p, 1024 j + q)` of the negative
  distance matrix. The 64 output blocks tile the 8192 by 8192 result (the point that covers entry `(r, s)` has block
  indices `(r / 1024, s / 1024)`), so the result array ends at that matrix.
-/
import proofs.«108911_j73667279061041_1_alg».proof.Proof.KernelIdealFrame
import proofs.«108911_j73667279061041_1_alg».proof.Proof.Payload
import Idealize.ShloMosaic.Lib.Pipeline.Value
import Idealize.ShloMosaic.Lib.ValueLayout
import Idealize.ShloMosaic.Lib.StableHlo.Run

set_option maxRecDepth 16384

noncomputable section

open scoped BigOperators

namespace Cert.KernelIdeal.Result

open Cert.KernelIdeal Cert.KernelIdeal.Gen Cert.KernelIdeal.Frame
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-! ## The arrays the host operations leave for the windows -/

/-- The program's argument on core `c`. -/
abbrev xarg (c : Dev nD) : FVec Ideal S8192x512 .f32 := m ((c : Thread nD τ).loc main_arg0)

/-- The rows' squared norms as the host computes them: the sum over each row of `x · x`, from zero. -/
def sqv (x : FVec Ideal S8192x512 .f32) : FVec Ideal S8192 .f32 :=
  Host.reduceAdd (mulf x x) (constant S_ .f32 0x00000000#32) reducesTo_S8192x512_S8192_d1 h_S_

/-- The cast input is the input. -/
theorem V_cast (c : Dev nD) : (V m c main_v4 : S8192x512.Idx → EReal) = xarg m c := by
  dsimp only [V, hostOps0]; after_results; rfl

/-- The column of squared norms. -/
theorem V_col (c : Dev nD) :
    (V m c main_v2 : S8192x1.Idx → EReal) = shapeCast S8192x1 (sqv (xarg m c)) shapeCasts_S8192_S8192x1 := by
  dsimp only [V, hostOps0]; after_results; rfl

/-- The row of squared norms. -/
theorem V_row (c : Dev nD) :
    (V m c main_v3 : S1x8192.Idx → EReal) = shapeCast S1x8192 (sqv (xarg m c)) shapeCasts_S8192_S1x8192 := by
  dsimp only [V, hostOps0]; after_results; rfl

/-- A vector laid out as a column, read at `(r, 0)`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem V_col_apply (c : Dev nD) (r : Fin 8192) (u : Fin 1) : V m c main_v2 (ix2 r u) = sqv (xarg m c) (ix1 r) := by
  rw [V_col]; exact shapeCast_a_a1_apply _ _ r u

theorem V_row_apply (c : Dev nD) (u : Fin 1) (s : Fin 8192) : V m c main_v3 (ix2 u s) = sqv (xarg m c) (ix1 s) := by
  rw [V_row]; exact shapeCast_a_1a_apply _ _ u s

/-! ## The blocks at a point -/

/-- The five index maps over the grid, decided once: the row-block windows follow the output's first block index, the
    column-block windows its second; the other block indices are zero; both output block indices are below 8. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 7 ∧ win0_4.index t (1 : Fin 2) ≤ 7 :=
  (by decide +kernel : ∀ t : Fin grid0.N, _)

/-- The input blocks at a point, at their literal types. -/
abbrev rowBlk (c : Dev nD) (t : Fin cfg0.N) : Vec Ideal S1024x512 .bf16 := iblk m c 0 t
abbrev colBlk (c : Dev nD) (t : Fin cfg0.N) : Vec Ideal S1024x512 .bf16 := iblk m c 1 t
abbrev sqCol (c : Dev nD) (t : Fin cfg0.N) : Vec Ideal S1024x1 .f32 := iblk m c 2 t
abbrev sqRow (c : Dev nD) (t : Fin cfg0.N) : Vec Ideal S1x1024 .f32 := iblk m c 3 t

/-- Entry `(p, k)` of the row block is entry `(r, k)` of the input, `r = 1024 i + p`. -/
theorem rowBlk_apply (c : Dev nD) (t : Fin cfg0.N) (p : Fin 1024) (k : Fin 512) (r : Fin 8192)
    (hr : r.val = win0_4.index t (0 : Fin 2) * 1024 + p.val) : rowBlk m c t (ix2 p k) = xarg m c (ix2 r k) := by
  show V m c main_v4 (((cfg0.win 0).blk t).view.emb (ix2 p k)) = _
  rw [V_cast]
  refine congrArg (xarg m c) ?_
  obtain ⟨e0, e1, -⟩ := idx_facts t
  funext a; apply Fin.ext
  match a with
  | ⟨0, _⟩ => show win0_0.index t (0 : Fin 2) * 1024 + 1 * p.val = r.val; omega
  | ⟨1, _⟩ => show win0_0.index t (1 : Fin 2) * 512 + 1 * k.val = k.val; omega

/-- Entry `(q, k)` of the column block is entry `(s, k)` of the input, `s = 1024 j + q`. -/
theorem colBlk_apply (c : Dev nD) (t : Fin cfg0.N) (q : Fin 1024) (k : Fin 512) (s : Fin 8192)
    (hs : s.val = win0_4.index t (1 : Fin 2) * 1024 + q.val) : colBlk m c t (ix2 q k) = xarg m c (ix2 s k) := by
  show V m c main_v4 (((cfg0.win 1).blk t).view.emb (ix2 q k)) = _
  rw [V_cast]
  refine congrArg (xarg m c) ?_
  obtain ⟨-, -, e0, e1, -⟩ := idx_facts t
  funext a; apply Fin.ext
  match a with
  | ⟨0, _⟩ => show win0_1.index t (0 : Fin 2) * 1024 + 1 * q.val = s.val; omega
  | ⟨1, _⟩ => show win0_1.index t (1 : Fin 2) * 512 + 1 * k.val = k.val; omega

/-- Entry `(p, 0)` of the squared norms' column block is `sq[r]`. -/
theorem sqCol_apply (c : Dev nD) (t : Fin cfg0.N) (p : Fin 1024) (r : Fin 8192)
    (hr : r.val = win0_4.index t (0 : Fin 2) * 1024 + p.val) : sqCol m c t (ix2 p 0) = sqv (xarg m c) (ix1 r) := by
  show V m c main_v2 (((cfg0.win 2).blk t).view.emb (ix2 p 0)) = _
  rw [← V_col_apply m c r 0]
  refine congrArg (V m c main_v2) ?_
  obtain ⟨-, -, -, -, e0, e1, -⟩ := idx_facts t
  funext a; apply Fin.ext
  match a with
  | ⟨0, _⟩ => show win0_2.index t (0 : Fin 2) * 1024 + 1 * p.val = r.val; omega
  | ⟨1, _⟩ => show win0_2.index t (1 : Fin 2) * 1 + 1 * 0 = 0; omega

/-- Entry `(0, q)` of the squared norms' row block is `sq[s]`. -/
theorem sqRow_apply (c : Dev nD) (t : Fin cfg0.N) (q : Fin 1024) (s : Fin 8192)
    (hs : s.val = win0_4.index t (1 : Fin 2) * 1024 + q.val) : sqRow m c t (ix2 0 q) = sqv (xarg m c) (ix1 s) := by
  show V m c main_v3 (((cfg0.win 3).blk t).view.emb (ix2 0 q)) = _
  rw [← V_row_apply m c 0 s]
  refine congrArg (V m c main_v3) ?_
  obtain ⟨-, -, -, -, -, -, e0, e1, -⟩ := idx_facts t
  funext a; apply Fin.ext
  match a with
  | ⟨0, _⟩ => show win0_3.index t (0 : Fin 2) * 1 + 1 * 0 = 0; omega
  | ⟨1, _⟩ => show win0_3.index t (1 : Fin 2) * 1024 + 1 * q.val = s.val; omega

/-! ## What a point writes back -/

theorem hz : (![0, 0] : Fin 2 → Nat) = fun _ => 0 := funext fun a => by fin_cases a <;> rfl

/-- The result array the run ends at: the negative distance matrix of the argument's rows. -/
abbrev result (c : Dev nD) : FVec Ideal S8192x8192 .f32 := Cert.Spec.negDist (xarg m c) (sqv (xarg m c))

/-- What point `t` writes back is block `t` of the negative distance matrix. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after4]
  unfold outBlk
  rw [View.canon_unit_zero hz]
  simp only [View.ld_unit_zero (S := S1024x512) hz, View.ld_unit_zero (S := S1024x1) hz, View.ld_unit_zero (S := S1x1024) hz]
  funext j
  obtain ⟨p, q, rfl⟩ : ∃ (p q : Fin 1024), j = ix2 p q := ⟨j 0, j 1, eq_ix2 j⟩
  obtain ⟨-, -, -, -, -, -, -, -, b0, b1⟩ := idx_facts t
  have hp : p.val < 1024 := p.isLt
  have hq : q.val < 1024 := q.isLt
  let r : Fin 8192 := ⟨win0_4.index t (0 : Fin 2) * 1024 + p.val, by omega⟩
  let s : Fin 8192 := ⟨win0_4.index t (1 : Fin 2) * 1024 + q.val, by omega⟩
  have hemb : ((cfg0.win 4).blk t).view.emb (ix2 p q) = ix2 r s := by
    funext a; apply Fin.ext
    match a with
    | ⟨0, _⟩ => show win0_4.index t (0 : Fin 2) * 1024 + 1 * p.val = win0_4.index t (0 : Fin 2) * 1024 + p.val; omega
    | ⟨1, _⟩ => show win0_4.index t (1 : Fin 2) * 1024 + 1 * q.val = win0_4.index t (1 : Fin 2) * 1024 + q.val; omega
  show Cert.KernelIdeal.Gen.k0_pay1 (F := Ideal) (rowBlk m c t) (colBlk m c t) (sqCol m c t) (sqRow m c t) (ix2 p q)
    = result m c (((cfg0.win 4).blk t).view.emb (ix2 p q))
  rw [hemb]
  show _ = Cert.Spec.negDistAt (xarg m c) (sqv (xarg m c)) r s
  refine (Cert.KernelIdeal.Payload.pay_apply _ _ _ _ p q).trans ?_
  unfold Cert.Spec.negDistAt Cert.Spec.gram
  rw [sqCol_apply m c t p r rfl, sqRow_apply m c t q s rfl]
  refine congrArg (Cert.Spec.cell _ _) (Finset.sum_congr rfl fun k _ => ?_)
  rw [rowBlk_apply m c t p k r rfl, colBlk_apply m c t q k s rfl]

/-! ## The blocks tile the result -/

/-- An index is in point `t`'s block iff each coordinate is in the block's range on its axis. -/
theorem mem_blk (t : Fin cfg0.N) (i : S8192x8192.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v5).slice (win0_4.rect t)).set ↔ _
  rw [View.set_slice_whole, Rect.mem_set_unit]
  exact Iff.rfl

/-- Every pair of block indices is some point's. -/
theorem idx_onto : ∀ (q0 q1 : Fin 8), ∃ t : Fin cfg0.N, win0_4.index t = ![q0.val, q1.val] :=
  (by decide +kernel : ∀ (q0 q1 : Fin 8), ∃ t : Fin grid0.N, win0_4.index t = ![q0.val, q1.val])

/-- Entry `(r, s)` lies in the block of the point with block indices `(r / 1024, s / 1024)`. -/
theorem cover (i : S8192x8192.Idx) :
    ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- The result array after the run. -/
theorem final (c : Dev nD) : (dats m 0 c).arrAt 4 cfg0.N = result m c :=
  (dats m 0 c).arrAt_eq_of_cover 4 (result m c) (fun t _ => flushed_eq m c t) cover

/-! ## The run, read -/

/-- Every weakly fair execution of the idealized kernel program terminates with the result array at the negative
    distance matrix of the argument's rows, and the argument unchanged. -/
theorem run : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0) :=
  (θ_run defs _ _).mono (fun r h c => ⟨((h c).1 4).trans (final m c),
      ((h c).2 main_arg0 (Pipeline.mem_restRefs_of main_arg0 (by decide) (by decide))).trans (V_main_arg0 m c)⟩)
    (run_main m ρ)

end Cert.KernelIdeal.Result

end
-- ==== Proof.RefValue.lean ====
/-
  The reference program's result is the specification.

  Read at the entry `(r, s)`, the reference's chain of host operations is
  `-√(max((sq r + sq s) - 2 · Σ_k x[r, k] · x[s, k], 0))`, where `sq` is the vector of the rows' squared norms
  (the stage the program computes first, kept here as one opaque vector): the two keepdims broadcasts of `sq`
  read it at `r` and at `s`, the contraction of `x` with itself along the second axis is the inner product of
  rows `r` and `s`, and the two broadcast literals are the same words the specification prints.
-/
import proofs.«108911_j73667279061041_1_alg».proof.Proof.Gen.ReferenceIdeal.Read
import proofs.«108911_j73667279061041_1_alg».proof.Proof.Spec

noncomputable section

open scoped BigOperators
open Idealize.ShloMosaic Idealize.ShloMosaic.ValueIdx

namespace Cert.ReferenceIdeal.RefValue

open Cert.ReferenceIdeal Cert.ReferenceIdeal.Read

/-- The column broadcast `[8192] → [8192, 1] → [8192, 8192]` reads the vector at the row coordinate. -/
theorem idx_row (r s : Fin 8192) : idx_main_v3 (idx_main_v5 (ix2 r s)) = ix1 r :=
  funext fun a => Fin.ext (by match a with | ⟨0, _⟩ => rfl)

/-- The row broadcast `[8192] → [1, 8192] → [8192, 8192]` reads the vector at the column coordinate. -/
theorem idx_col (r s : Fin 8192) : idx_main_v4 (idx_main_v6 (ix2 r s)) = ix1 s :=
  funext fun a => Fin.ext (by match a with | ⟨0, _⟩ => rfl)

/-- The contraction's left operand at `(r, s)`, `k` is `x[r, k]`. -/
theorem lidx_eq (r s : Fin 8192) (k : Fin 512) : lidx_main_v2 (ix2 r s) k = ix2 r k :=
  funext fun a => Fin.ext (by match a with | ⟨0, _⟩ => rfl | ⟨1, _⟩ => rfl)

/-- The contraction's right operand at `(r, s)`, `k` is `x[s, k]`. -/
theorem ridx_eq (r s : Fin 8192) (k : Fin 512) : ridx_main_v2 (ix2 r s) k = ix2 s k :=
  funext fun a => Fin.ext (by match a with | ⟨0, _⟩ => rfl | ⟨1, _⟩ => rfl)

/-- The reference's last stage is the negative distance matrix of the rows of `x`, with the program's own
    squared-norm stage as the specification's `sq`. -/
theorem result_eq (x : (⟨Cert.ReferenceIdeal.S8192x512, .f32⟩ : BufTy).Contents (Elt Ideal)) :
    Cert.ReferenceIdeal.Read.val_main_v14 (F := Ideal) x
      = Cert.Spec.negDist x (Cert.ReferenceIdeal.Read.val_main_v1 (F := Ideal) x) := by
  funext i
  obtain ⟨r, s, rfl⟩ : ∃ (r s : Fin 8192), i = ix2 r s := ⟨i 0, i 1, eq_ix2 i⟩
  rw [val_main_v14_apply, val_main_v13_apply, val_main_v12_apply, val_main_v10_apply, val_main_v11_apply,
    val_main_cst_1_apply, val_main_v7_apply, val_main_v9_apply, val_main_v5_apply, val_main_v3_apply,
    val_main_v6_apply, val_main_v4_apply, val_main_v8_apply, val_main_cst_0_apply, val_main_v2_apply]
  simp only [idx_row, idx_col, lidx_eq, ridx_eq, Cert.Spec.negDist_apply, Cert.Spec.negDistAt, Cert.Spec.cell,
    Cert.Spec.gram, Ideal.hostNegf_def, Ideal.negf_def, Ideal.hostUnary_sqrt_def, Ideal.maximumf_def,
    Ideal.subf_def, Ideal.addf_def, Ideal.mulf_def, Ideal.ofBits_def]

end Cert.ReferenceIdeal.RefValue

end
-- ==== Proof.lean ====
/-
  The negative Euclidean distance matrix of the rows of an 8192 by 512 matrix, computed through the Gram identity
  `‖a - b‖² = ‖a‖² + ‖b‖² - 2 ⟨a, b⟩`: a pipelined kernel over 1024 by 1024 output blocks against the plain host
  computation.

  Both programs first sum the squares of each row on the host (the same operations: the vector `sq`). The reference
  contracts the input with itself along the second axis, spreads `sq` along rows and columns, and applies
  `-√(max((sq r + sq s) - 2 g, 0))` entry by entry. The kernel casts the input to the matrix unit's format (the
  identity on the extended reals), and at grid point `(i, j)` multiplies row block `i` by the transpose of row block
  `j` into a zero block, adds the two blocks of `sq`, and stores `0 - √(max(… , 0))`. On the extended reals a
  matrix product into a zero accumulator and the host's contraction are the same sum, `0 - y = -y`, the square root
  and the maximum are one function on both sides, and the two literals are the same words; so both results are, entry
  by entry, the one function `Cert.Spec.negDist` of the argument and of `sq`. No law used needs the inputs finite.

  The frames: the two kernel programs hand ONE array (the cast input) to two windows, so the pipeline holds it at two
  half shares; their frame is proved once at any float instance (Proof/KernelIdealFrame.lean, over the launch for
  shared arrays of Proof/LibFrameShared.lean) and stated again in the word-level program's namespace
  (Proof/KernelFrame.lean). The reference has no kernel: its frame is its run with the result dropped. The
  idealization rewrote nothing, so `preserves` has no conjunct.
-/
import proofs.«108911_j73667279061041_1_alg».proof.Defs
import proofs.«108911_j73667279061041_1_alg».proof.Proof.Gen.Kernel
import proofs.«108911_j73667279061041_1_alg».proof.Proof.Gen.KernelIdeal
import proofs.«108911_j73667279061041_1_alg».proof.Proof.Gen.ReferenceIdeal
import proofs.«108911_j73667279061041_1_alg».proof.Proof.Gen.Pre_finite_inputs
import proofs.«108911_j73667279061041_1_alg».proof.Proof.Gen.ReferenceIdeal.Run
import proofs.«108911_j73667279061041_1_alg».proof.Proof.Gen.ReferenceIdeal.Read
import proofs.«108911_j73667279061041_1_alg».proof.Proof.KernelFrame
import proofs.«108911_j73667279061041_1_alg».proof.Proof.KernelIdealFrame
import proofs.«108911_j73667279061041_1_alg».proof.Proof.KernelIdealValue
import proofs.«108911_j73667279061041_1_alg».proof.Proof.RefValue
import Idealize.ShloMosaic.Adequacy
import Idealize.ShloMosaic.Init

noncomputable section

namespace Cert.Proof

open Idealize.ShloMosaic Idealize.SL.Sem

/-- The word-level kernel program runs to the end, faults nowhere and leaves its argument unchanged. -/
theorem frame_kernel : Cert.frame_Kernel := fun m ρ _ => Cert.Kernel.Frame.frame m ρ

/-- The same of the idealized kernel program. -/
theorem frame_kernelIdeal : Cert.frame_KernelIdeal := fun m ρ _ => Cert.KernelIdeal.Frame.frame m ρ

/-- The reference is host operations only: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the argument both programs end with the negative distance matrix of its rows. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [hagree c]
  exact (Cert.ReferenceIdeal.Read.val_main_v14_eq _).trans ((Cert.ReferenceIdeal.RefValue.result_eq _).trans rfl)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
